-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096 : Shape := ⟨2, ![4, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4x4096 : Shape := ⟨2, ![4, 4096]⟩
abbrev S4096 : Shape := ⟨1, ![4096]⟩
abbrev S1x4096 : Shape := ⟨2, ![1, 4096]⟩
abbrev S1x256x4096 : Shape := ⟨3, ![1, 256, 4096]⟩
abbrev S8x4096 : Shape := ⟨2, ![8, 4096]⟩
abbrev S256x4096 : Shape := ⟨2, ![256, 4096]⟩
abbrev S3x4096 : Shape := ⟨2, ![3, 4096]⟩
abbrev S253x4096 : Shape := ⟨2, ![253, 4096]⟩
abbrev S2x4096 : Shape := ⟨2, ![2, 4096]⟩
abbrev S254x4096 : Shape := ⟨2, ![254, 4096]⟩
abbrev S255x4096 : Shape := ⟨2, ![255, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4096, .f32⟩
  | .hbm, ⟨3, _⟩ => ⟨S1x4096, .f32⟩
  | .hbm, ⟨4, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S4x4096, .f32⟩
  | .local _ .vmem, ⟨3, _⟩ => ⟨S1x4096, .f32⟩
  | .local _ .vmem, ⟨4, _⟩ => ⟨S1x256x4096, .f32⟩
  | .local _ .vmem, ⟨5, _⟩ => ⟨S1x256x4096, .f32⟩
  | .local _ .vmem, ⟨6, _⟩ => ⟨S8x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4x4096_S4x4096_0_0 : ∀ a, (![0, 0] : Fin 2 → Nat) a + S4x4096.size a ≤ S4x4096.size a
  h_S4x4096 : 0 < S4x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S8x4096_o5_0_S3x4096 : S8x4096.Slices ![5, 0] S3x4096
  slices_S256x4096_o0_0_S253x4096 : S256x4096.Slices ![0, 0] S253x4096
  concatenates_S3x4096_S253x4096_S256x4096_d0 : Shape.Concatenates [S3x4096, S253x4096] S256x4096 0
  slices_S4x4096_o0_0_S1x4096 : S4x4096.Slices ![0, 0] S1x4096
  shapeCasts_S1x4096_S4096 : S1x4096.ShapeCasts S4096
  broadcasts_S1x4096_S256x4096 : S1x4096.Broadcasts S256x4096
  slices_S8x4096_o6_0_S2x4096 : S8x4096.Slices ![6, 0] S2x4096
  slices_S256x4096_o0_0_S254x4096 : S256x4096.Slices ![0, 0] S254x4096
  concatenates_S2x4096_S254x4096_S256x4096_d0 : Shape.Concatenates [S2x4096, S254x4096] S256x4096 0
  slices_S4x4096_o1_0_S1x4096 : S4x4096.Slices ![1, 0] S1x4096
  slices_S8x4096_o7_0_S1x4096 : S8x4096.Slices ![7, 0] S1x4096
  slices_S256x4096_o0_0_S255x4096 : S256x4096.Slices ![0, 0] S255x4096
  concatenates_S1x4096_S255x4096_S256x4096_d0 : Shape.Concatenates [S1x4096, S255x4096] S256x4096 0
  slices_S4x4096_o2_0_S1x4096 : S4x4096.Slices ![2, 0] S1x4096
  slices_S4x4096_o3_0_S1x4096 : S4x4096.Slices ![3, 0] S1x4096
  shapeCasts_S256x4096_S1x256x4096 : S256x4096.ShapeCasts S1x256x4096
  slices_S256x4096_o248_0_S8x4096 : S256x4096.Slices ![248, 0] S8x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096.size a ≤ S4x4096.size a
  hwx0_1 : ∀ i : grid0.Coords, EltTy.bits .f32 = 32 ∨ (Rect.block (s := S4x4096) S4x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x4096x4096.size a
  hwx0_3 : ∀ i : grid0.Coords, EltTy.bits .f32 = 32 ∨ (Rect.block (s := S4x4096x4096) S1x256x4096.size (cc0_transform_3 i) (hinb0_3 i)).WholeWords (EltTy.packing .f32)

variable [Facts₀]

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S4096 : Shape := ⟨1, ![4096]⟩
abbrev S_ : Shape := ⟨0, ![]⟩
abbrev S4x4099x4096 : Shape := ⟨3, ![4, 4099, 4096]⟩
abbrev S1x1x4096 : Shape := ⟨3, ![1, 1, 4096]⟩
abbrev S4x4096x1 : Shape := ⟨3, ![4, 4096, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4096, .f32⟩
  | .hbm, ⟨3, _⟩ => ⟨S_, .i32⟩
  | .hbm, ⟨4, _⟩ => ⟨S_, .f32⟩
  | .hbm, ⟨5, _⟩ => ⟨S4x4099x4096, .f32⟩
  | .hbm, ⟨6, _⟩ => ⟨S1x1x4096, .f32⟩
  | .hbm, ⟨7, _⟩ => ⟨S_, .f32⟩
  | .hbm, ⟨8, _⟩ => ⟨S4x4096x1, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S1x4096, .f32⟩
  | .hbm, ⟨16, _⟩ => ⟨S4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S1x4096, .f32⟩
  | .hbm, ⟨23, _⟩ => ⟨S4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S1x4096, .f32⟩
  | .hbm, ⟨37, _⟩ => ⟨S4096, .f32⟩
  | .hbm, ⟨38, _⟩ => ⟨S1x1x4096, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S1x1x4096, .f32⟩
  | .hbm, ⟨43, _⟩ => ⟨S4x4096x4096, .f32⟩
  | .hbm, ⟨44, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]

class Facts₀ : Prop where
  pads_S4x4096x4096_S4x4099x4096_000_300_000 : S4x4096x4096.Pads (![0, 3, 0] : Fin 3 → Nat) ![0, 0, 0] ![0, 0, 0] S4x4099x4096
  h_S_ : 0 < S_.numel
  bcast_S4096_S1x1x4096_2 : S4096.BroadcastsInDim S1x1x4096 (![2] : Fin 1 → Fin S1x1x4096.rank)
  bcast_S_S4x4096x1 : S_.BroadcastsInDim S4x4096x1 (![] : Fin 0 → Fin S4x4096x1.rank)
  bcast_S1x1x4096_S4x4096x4096_0_1_2 : S1x1x4096.BroadcastsInDim S4x4096x4096 (![0, 1, 2] : Fin 3 → Fin S4x4096x4096.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)
  slices_S4x4099x4096_S4x4096x4096_0_0_0 : S4x4099x4096.Slices ![0, 0, 0] S4x4096x4096
  slices_S4x4096_S1x4096_0_0 : S4x4096.Slices ![0, 0] S1x4096
  shapeCasts_S1x4096_S4096 : S1x4096.ShapeCasts S4096
  slices_S4x4099x4096_S4x4096x4096_0_1_0 : S4x4099x4096.Slices ![0, 1, 0] S4x4096x4096
  slices_S4x4096_S1x4096_1_0 : S4x4096.Slices ![1, 0] S1x4096
  slices_S4x4099x4096_S4x4096x4096_0_2_0 : S4x4099x4096.Slices ![0, 2, 0] S4x4096x4096
  slices_S4x4096_S1x4096_2_0 : S4x4096.Slices ![2, 0] S1x4096
  slices_S4x4099x4096_S4x4096x4096_0_3_0 : S4x4099x4096.Slices ![0, 3, 0] S4x4096x4096
  slices_S4x4096_S1x4096_3_0 : S4x4096.Slices ![3, 0] S1x4096

variable [Facts₀]

class Facts : Prop extends Facts₀ where

variable [Facts]
-- ==== Proof.Cases.lean ====
/-
  What one grid point leaves behind, case by case.

  At the first tile of a batch row (case A) the history is reset to zeros before it is read; at every other tile
  (case B) the history is what the tile before left. In both cases the point ends by overwriting the history with
  the last 8 rows of its own tile, and stores into the output block the convolution arithmetic of its tile, the
  history it read, the taps and the bias.
-/
import proofs.«163459_j71305047048638_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Conv

open Cert.KernelIdeal Cert.KernelIdeal.Gen

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- Case B, the history: the last 8 rows of the point's own tile, whatever the history held. -/
theorem hist_B (c : Dev nD) (i : grid0.Coords) (arg2 : Memref sig .tc .vmem S1x256x4096 .f32) (harg2 : arg2.IsWhole) (arg3 : Memref sig .tc .vmem S4x4096 .f32) (harg3 : arg3.IsWhole) (arg4 : Memref sig .tc .vmem S1x4096 .f32) (harg4 : arg4.IsWhole) (arg5 : Memref sig .tc .vmem S1x256x4096 .f32) (harg5 : arg5.IsWhole) (arg6 : Memref sig .tc .vmem S8x4096 .f32) (harg6 : arg6.IsWhole) (hc0 : ¬cond0_0 i)
    (x0 : Vec F S1x256x4096 .f32) (x1 : Vec F S4x4096 .f32) (x2 : Vec F S1x4096 .f32) (xs0 : Vec F S8x4096 .f32) :
    sout0_B_0 c i arg2 harg2 arg3 harg3 arg4 harg4 arg5 harg5 arg6 harg6 hc0 x0 x1 x2 xs0 = k0_pay2 (k0_pay4 x0) := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg2.read_unread, View.ld_unit_zero (S := S1x256x4096) hz3]

/-- Case B, the output block: the convolution arithmetic of the tile and the history the tile before left. -/
theorem out_B (c : Dev nD) (i : grid0.Coords) (arg2 : Memref sig .tc .vmem S1x256x4096 .f32) (harg2 : arg2.IsWhole) (arg3 : Memref sig .tc .vmem S4x4096 .f32) (harg3 : arg3.IsWhole) (arg4 : Memref sig .tc .vmem S1x4096 .f32) (harg4 : arg4.IsWhole) (arg5 : Memref sig .tc .vmem S1x256x4096 .f32) (harg5 : arg5.IsWhole) (arg6 : Memref sig .tc .vmem S8x4096 .f32) (harg6 : arg6.IsWhole) (hc0 : ¬cond0_0 i)
    (x0 : Vec F S1x256x4096 .f32) (x1 : Vec F S4x4096 .f32) (x2 : Vec F S1x4096 .f32) (xs0 : Vec F S8x4096 .f32) :
    out0_B_3 c i arg2 harg2 arg3 harg3 arg4 harg4 arg5 harg5 arg6 harg6 hc0 x0 x1 x2 xs0 = k0_pay1 (k0_pay5 x0 xs0 x1 x2) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S1x256x4096) hz3, View.ld_unit_zero (S := S8x4096) hz2,
    View.ld_unit_zero (S := S4x4096) hz2, View.ld_unit_zero (S := S1x4096) hz2]

/-- Case A, the history: the reset is overwritten by the last 8 rows of the point's own tile. -/
theorem hist_A (c : Dev nD) (i : grid0.Coords) (arg2 : Memref sig .tc .vmem S1x256x4096 .f32) (harg2 : arg2.IsWhole) (arg3 : Memref sig .tc .vmem S4x4096 .f32) (harg3 : arg3.IsWhole) (arg4 : Memref sig .tc .vmem S1x4096 .f32) (harg4 : arg4.IsWhole) (arg5 : Memref sig .tc .vmem S1x256x4096 .f32) (harg5 : arg5.IsWhole) (arg6 : Memref sig .tc .vmem S8x4096 .f32) (harg6 : arg6.IsWhole) (hc0 : cond0_0 i)
    (x0 : Vec F S1x256x4096 .f32) (x1 : Vec F S4x4096 .f32) (x2 : Vec F S1x4096 .f32) :
    sout0_A_0 c i arg2 harg2 arg3 harg3 arg4 harg4 arg5 harg5 arg6 harg6 hc0 x0 x1 x2 = k0_pay2 (k0_pay4 x0) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S8x4096) hz2]
  simp only [View.readAt_eq_ld, harg2.read_unread, View.ld_unit_zero (S := S1x256x4096) hz3]

/-- Case A, the output block: the convolution arithmetic of the tile and the ZERO history the reset wrote. -/
theorem out_A (c : Dev nD) (i : grid0.Coords) (arg2 : Memref sig .tc .vmem S1x256x4096 .f32) (harg2 : arg2.IsWhole) (arg3 : Memref sig .tc .vmem S4x4096 .f32) (harg3 : arg3.IsWhole) (arg4 : Memref sig .tc .vmem S1x4096 .f32) (harg4 : arg4.IsWhole) (arg5 : Memref sig .tc .vmem S1x256x4096 .f32) (harg5 : arg5.IsWhole) (arg6 : Memref sig .tc .vmem S8x4096 .f32) (harg6 : arg6.IsWhole) (hc0 : cond0_0 i)
    (x0 : Vec F S1x256x4096 .f32) (x1 : Vec F S4x4096 .f32) (x2 : Vec F S1x4096 .f32) :
    out0_A_3 c i arg2 harg2 arg3 harg3 arg4 harg4 arg5 harg5 arg6 harg6 hc0 x0 x1 x2 = k0_pay1 (k0_pay5 x0 k0_pay3 x1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3]
  simp only [View.readAt_eq_ld, harg2.read_unread, harg3.read_unread, harg4.read_unread,
    View.readCov_unit_zero (S := S8x4096) _ hz2,
    View.ld_unit_zero (S := S1x256x4096) hz3,
    View.ld_unit_zero (S := S4x4096) hz2, View.ld_unit_zero (S := S1x4096) hz2]

/-- AFTER EVERY POINT the history holds the last 8 rows of that point's tile: both cases end with the same
    whole-buffer store, so no induction over the points is needed. -/
theorem hist_after (c : Dev nD) (t : Fin cfg0.N) :
    (outsAt0 m c t.val t.isLt).2 = k0_pay2 (k0_pay4 (iblk m c 0 t)) := by
  by_cases h0 : t.val % 16 = 0
  · rw [outsAt0_A m c t h0]; dsimp only
    exact hist_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0]; dsimp only
    exact hist_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2

/-- The output block a first tile leaves. -/
theorem out_first (c : Dev nD) (t : Fin cfg0.N) (h0 : t.val % 16 = 0) :
    (outsAt0 m c t.val t.isLt).1 = k0_pay1 (k0_pay5 (iblk m c 0 t) k0_pay3 (iblk m c 1 t) (iblk m c 2 t)) := by
  rw [outsAt0_A m c t h0]; dsimp only
  exact out_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- The output block a later tile leaves: over the last 8 rows of the tile before. -/
theorem out_later (c : Dev nD) (t : Fin cfg0.N) (h0 : ¬t.val % 16 = 0) :
    (outsAt0 m c t.val t.isLt).1 = k0_pay1 (k0_pay5 (iblk m c 0 t)
      (k0_pay2 (k0_pay4 (iblk m c 0 ⟨t.val - 1, Nat.lt_of_le_of_lt (Nat.sub_le _ _) t.isLt⟩))) (iblk m c 1 t) (iblk m c 2 t)) := by
  rw [outsAt0_B m c t h0]; dsimp only
  rw [hist_after m c ⟨t.val - 1, Nat.lt_of_le_of_lt (Nat.sub_le _ _) t.isLt⟩]
  exact out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) _

end Cert.KernelIdeal.Conv

end
-- ==== Proof.Spec.lean ====
/-
  The causal depthwise temporal convolution, entry by entry, over the extended reals.

  For a batch row `β`, a time `τ` and a channel `δ`,
      out[β, τ, δ] = ((((0 + x[β, τ-3, δ] · w[0, δ]) + x[β, τ-2, δ] · w[1, δ]) + x[β, τ-1, δ] · w[2, δ]) + x[β, τ, δ] · w[3, δ]) + b[δ]
  where `x` before time 0 reads as zero. The sum is kept in this order: both programs add the taps in it, so
  no law of the extended reals is needed to join them (and none that could fail at an infinity).
-/
import Idealize.ShloMosaic.PureOps.Ideal
import Idealize.ShloMosaic.Lib.ValueIdx

noncomputable section

namespace Cert.CausalConv

open Idealize.ShloMosaic Idealize.ShloMosaic.ValueIdx

/-- `x[β, τ - N, δ]`, zero before the sequence starts. -/
def past (x : (⟨3, ![4, 4096, 4096]⟩ : Shape).Idx → EReal) (N : Nat) (β : Fin 4) (τ : Fin 4096) (δ : Fin 4096) : EReal :=
  if h : N ≤ τ.val then x (ix3 β (⟨τ.val - N, by have := τ.isLt; omega⟩ : Fin 4096) δ) else 0

/-- The convolution at one entry, the taps added in order onto zero, then the bias. -/
def at3 (x : (⟨3, ![4, 4096, 4096]⟩ : Shape).Idx → EReal) (w : (⟨2, ![4, 4096]⟩ : Shape).Idx → EReal)
    (b : (⟨1, ![4096]⟩ : Shape).Idx → EReal) (β : Fin 4) (τ : Fin 4096) (δ : Fin 4096) : EReal :=
  ((((0 + past x 3 β τ δ * w (ix2 (⟨0, by omega⟩ : Fin 4) δ))
      + past x 2 β τ δ * w (ix2 (⟨1, by omega⟩ : Fin 4) δ))
      + past x 1 β τ δ * w (ix2 (⟨2, by omega⟩ : Fin 4) δ))
      + x (ix3 β τ δ) * w (ix2 (⟨3, by omega⟩ : Fin 4) δ))
    + b (ix1 δ)

/-- The whole result array. -/
def conv (x : (⟨3, ![4, 4096, 4096]⟩ : Shape).Idx → EReal) (w : (⟨2, ![4, 4096]⟩ : Shape).Idx → EReal)
    (b : (⟨1, ![4096]⟩ : Shape).Idx → EReal) : (⟨3, ![4, 4096, 4096]⟩ : Shape).Idx → EReal :=
  fun i => at3 x w b (i 0) (i 1) (i 2)

theorem conv_ix3 (x : (⟨3, ![4, 4096, 4096]⟩ : Shape).Idx → EReal) (w : (⟨2, ![4, 4096]⟩ : Shape).Idx → EReal)
    (b : (⟨1, ![4096]⟩ : Shape).Idx → EReal) (β : Fin 4) (τ : Fin 4096) (δ : Fin 4096) :
    conv x w b (ix3 β τ δ) = at3 x w b β τ δ := rfl

/-- A delay of zero rows is the entry itself. -/
theorem past_zero (x : (⟨3, ![4, 4096, 4096]⟩ : Shape).Idx → EReal) (β : Fin 4) (τ : Fin 4096) (δ : Fin 4096) :
    past x 0 β τ δ = x (ix3 β τ δ) := by
  unfold past
  rw [dif_pos (Nat.zero_le _)]
  rfl

end Cert.CausalConv

end
-- ==== Proof.Body.lean ====
/-
  The arithmetic of one grid point of the causal depthwise convolution, read at one entry.

  A point loads a tile `x` of 256 consecutive time rows (all 4096 channels), the 8 history rows `h` kept from the
  tile before, the four tap rows `w` and the bias row `b`, and leaves at row `r`, channel `d`
      ((((0 + s₃ · w₀) + s₂ · w₁) + s₁ · w₂) + x · w₃) + b
  where `s_N` is the tile delayed by `N` rows: row `r - N` of the tile when `N ≤ r`, and otherwise row
  `8 - N + r` of the history (the last `N` history rows stacked on top of the first `256 - N` tile rows).
  Every layout operation of the body is read at an index here, over the extended reals.
-/
import proofs.«163459_j71305047048638_1_alg».proof.Proof.Gen.KernelIdeal.Skeleton
import proofs.«163459_j71305047048638_1_alg».proof.Proof.Spec
import Idealize.ShloMosaic.Lib.Pipeline.Value
import Idealize.ShloMosaic.Lib.ValueIdx
import Idealize.ShloMosaic.PureOps.Ideal.Laws

noncomputable section

namespace Cert.KernelIdeal.Conv

open Cert.KernelIdeal Cert.KernelIdeal.Gen Cert.CausalConv Idealize.ShloMosaic Idealize.ShloMosaic.ValueIdx

/-- The last `N` of 8 history rows stacked on the first `M = 256 - N` rows of a tile: row `r` is history row
    `o + r` (`o = 8 - N`) while `r < N`, and tile row `r - N` from there on. -/
theorem stacked_apply {α : Type} (N M o : Nat) (hNM : N + M = 256) (ho : o + N = 8)
    (h : (⟨2, ![8, 4096]⟩ : Shape).Idx → α) (x : (⟨2, ![256, 4096]⟩ : Shape).Idx → α)
    (hs1 : (⟨2, ![8, 4096]⟩ : Shape).Slices ![o, 0] ⟨2, ![N, 4096]⟩)
    (hs2 : (⟨2, ![256, 4096]⟩ : Shape).Slices ![0, 0] ⟨2, ![M, 4096]⟩)
    (hc : Shape.Concatenates [(⟨2, ![N, 4096]⟩ : Shape), ⟨2, ![M, 4096]⟩] ⟨2, ![256, 4096]⟩ 0)
    (r : Fin 256) (d : Fin 4096) :
    concatenate ⟨2, ![256, 4096]⟩ 0 [⟨⟨2, ![N, 4096]⟩, extractStridedSlice ⟨2, ![N, 4096]⟩ ![o, 0] h hs1⟩,
        ⟨⟨2, ![M, 4096]⟩, extractStridedSlice ⟨2, ![M, 4096]⟩ ![0, 0] x hs2⟩] hc (ix2 r d)
      = if hr : r.val < N then h (ix2 (⟨o + r.val, by omega⟩ : Fin 8) d)
        else x (ix2 (⟨r.val - N, by have := r.isLt; omega⟩ : Fin 256) d) := by
  have hr256 : r.val < 256 := r.isLt
  by_cases hr : r.val < N
  · rw [dif_pos hr]
    refine (concatenate_pair_apply_left (t := ⟨2, ![256, 4096]⟩) (s₁ := ⟨2, ![N, 4096]⟩) (s₂ := ⟨2, ![M, 4096]⟩) (0 : Fin 2)
      (extractStridedSlice ⟨2, ![N, 4096]⟩ ![o, 0] h hs1) (extractStridedSlice ⟨2, ![M, 4096]⟩ ![0, 0] x hs2) hc (ix2 r d) rfl
      (ix2 (⟨r.val, hr⟩ : Fin N) d) (fun b => ?_)).trans ?_
    · match b with
      | ⟨0, _⟩ => rfl
      | ⟨1, _⟩ => rfl
    · exact extractStridedSlice_apply _ h hs1 _ _ (fun a => match a with
        | ⟨0, _⟩ => rfl
        | ⟨1, _⟩ => by show d.val = 0 + d.val; omega)
  · rw [dif_neg hr]
    refine (concatenate_pair_apply_right (t := ⟨2, ![256, 4096]⟩) (s₁ := ⟨2, ![N, 4096]⟩) (s₂ := ⟨2, ![M, 4096]⟩) (0 : Fin 2)
      (extractStridedSlice ⟨2, ![N, 4096]⟩ ![o, 0] h hs1) (extractStridedSlice ⟨2, ![M, 4096]⟩ ![0, 0] x hs2) hc (ix2 r d) rfl rfl
      (ix2 (⟨r.val - N, by omega⟩ : Fin M) d) (fun b hb => ?_) ?_).trans ?_
    · match b with
      | ⟨0, _⟩ => exact absurd rfl hb
      | ⟨1, _⟩ => rfl
    · show (r.val - N) + N = r.val; omega
    · exact extractStridedSlice_apply _ x hs2 _ _ (fun a => match a with
        | ⟨0, _⟩ => by show r.val - N = 0 + (r.val - N); omega
        | ⟨1, _⟩ => by show d.val = 0 + d.val; omega)

/-- Tap row `k` of the weights, cut out, flattened, re-expanded and repeated down the 256 rows, reads `w[k, d]`. -/
theorem taprow_apply {α : Type} (k : Nat) (hk : k < 4) (w : (⟨2, ![4, 4096]⟩ : Shape).Idx → α)
    (hs : (⟨2, ![4, 4096]⟩ : Shape).Slices ![k, 0] ⟨2, ![1, 4096]⟩)
    (h1 : (⟨2, ![1, 4096]⟩ : Shape).ShapeCasts ⟨1, ![4096]⟩) (h2 : (⟨1, ![4096]⟩ : Shape).ShapeCasts ⟨2, ![1, 4096]⟩)
    (hb : (⟨2, ![1, 4096]⟩ : Shape).Broadcasts ⟨2, ![256, 4096]⟩) (r : Fin 256) (d : Fin 4096) :
    broadcastTo ⟨2, ![256, 4096]⟩ (shapeCast ⟨2, ![1, 4096]⟩ (shapeCast ⟨1, ![4096]⟩
      (extractStridedSlice ⟨2, ![1, 4096]⟩ ![k, 0] w hs) h1) h2) hb (ix2 r d) = w (ix2 (⟨k, hk⟩ : Fin 4) d) := by
  rw [shapeCast_shapeCast]
  refine (broadcastTo_apply _ hb (ix2 r d) (ix2 (0 : Fin 1) d) (fun a => match a with
    | ⟨0, _⟩ => rfl
    | ⟨1, _⟩ => rfl)).trans ?_
  exact extractStridedSlice_apply _ w hs _ _ (fun a => match a with
    | ⟨0, _⟩ => by show k = k + 0; omega
    | ⟨1, _⟩ => by show d.val = 0 + d.val; omega)

/-- The bias row repeated down the 256 rows reads `b[0, d]`. -/
theorem biasrow_apply {α : Type} (b : (⟨2, ![1, 4096]⟩ : Shape).Idx → α)
    (h1 : (⟨2, ![1, 4096]⟩ : Shape).ShapeCasts ⟨2, ![1, 4096]⟩)
    (hb : (⟨2, ![1, 4096]⟩ : Shape).Broadcasts ⟨2, ![256, 4096]⟩) (r : Fin 256) (d : Fin 4096) :
    broadcastTo ⟨2, ![256, 4096]⟩ (shapeCast ⟨2, ![1, 4096]⟩ b h1) hb (ix2 r d) = b (ix2 (0 : Fin 1) d) := by
  rw [shapeCast_self]
  exact broadcastTo_apply _ hb (ix2 r d) (ix2 (0 : Fin 1) d) (fun a => match a with
    | ⟨0, _⟩ => rfl
    | ⟨1, _⟩ => rfl)

/-- A `[1, 256, 4096]` block viewed as its `[256, 4096]` tile. -/
theorem tile_apply {α : Type} (v : (⟨3, ![1, 256, 4096]⟩ : Shape).Idx → α)
    (h : (⟨3, ![1, 256, 4096]⟩ : Shape).ShapeCasts ⟨2, ![256, 4096]⟩) (r : Fin 256) (d : Fin 4096) :
    shapeCast ⟨2, ![256, 4096]⟩ v h (ix2 r d) = v (ix3 (0 : Fin 1) r d) := by
  refine shapeCast_apply v h (ix2 r d) (ix3 (0 : Fin 1) r d) ?_
  rw [Shape.rowMajor_val_three, Shape.rowMajor_val_two]
  show (0 * 256 + r.val) * 4096 + d.val = r.val * 4096 + d.val
  omega

/-- The tile `x` delayed by `N` rows over the history `h` (`o = 8 - N`): row `r - N` of the tile, or history row
    `o + r` while `r < N`. -/
def delayed (N o : Nat) (ho : o + N = 8) (x : Vec Ideal S1x256x4096 .f32) (h : Vec Ideal S8x4096 .f32) (r : Fin 256) (d : Fin 4096) : EReal :=
  if hr : r.val < N then h (ix2 (⟨o + r.val, by omega⟩ : Fin 8) d)
  else x (ix3 (0 : Fin 1) (⟨r.val - N, by have := r.isLt; omega⟩ : Fin 256) d)

/-- THE BODY'S ARITHMETIC AT ONE ENTRY, over the extended reals: the four taps accumulated from zero in tap order over
    the tile delayed by 3, 2, 1 and 0 rows, then the bias. -/
theorem conv_apply (x : Vec Ideal S1x256x4096 .f32) (h : Vec Ideal S8x4096 .f32) (w : Vec Ideal S4x4096 .f32)
    (b : Vec Ideal S1x4096 .f32) (r : Fin 256) (d : Fin 4096) :
    k0_pay5 x h w b (ix2 r d)
      = ((((0 + delayed 3 5 rfl x h r d * w (ix2 (⟨0, by omega⟩ : Fin 4) d))
          + delayed 2 6 rfl x h r d * w (ix2 (⟨1, by omega⟩ : Fin 4) d))
          + delayed 1 7 rfl x h r d * w (ix2 (⟨2, by omega⟩ : Fin 4) d))
          + x (ix3 (0 : Fin 1) r d) * w (ix2 (⟨3, by omega⟩ : Fin 4) d))
        + b (ix2 (0 : Fin 1) d) := by
  unfold k0_pay5 k0_pay4
  dsimp only
  simp only [addf_apply, mulf_apply, broadcast_apply]
  rw [taprow_apply 0 (by omega) w, taprow_apply 1 (by omega) w, taprow_apply 2 (by omega) w, taprow_apply 3 (by omega) w,
    biasrow_apply b, stacked_apply 3 253 5 rfl rfl h _, stacked_apply 2 254 6 rfl rfl h _,
    stacked_apply 1 255 7 rfl rfl h _]
  simp only [tile_apply, Ideal.ofBits_def, Ideal.ofBits_zero_f32]
  rfl

/-- The history a point leaves, at one entry: row `248 + r` of its tile. -/
theorem tail_apply {α : Type} (x : (⟨3, ![1, 256, 4096]⟩ : Shape).Idx → α)
    (h1 : (⟨3, ![1, 256, 4096]⟩ : Shape).ShapeCasts ⟨2, ![256, 4096]⟩)
    (hs : (⟨2, ![256, 4096]⟩ : Shape).Slices ![248, 0] ⟨2, ![8, 4096]⟩)
    (h2 : (⟨2, ![8, 4096]⟩ : Shape).ShapeCasts ⟨2, ![8, 4096]⟩) (r : Fin 8) (d : Fin 4096) :
    shapeCast ⟨2, ![8, 4096]⟩ (extractStridedSlice ⟨2, ![8, 4096]⟩ ![248, 0] (shapeCast ⟨2, ![256, 4096]⟩ x h1) hs) h2 (ix2 r d)
      = x (ix3 (0 : Fin 1) (⟨248 + r.val, by omega⟩ : Fin 256) d) := by
  rw [shapeCast_self]
  refine (extractStridedSlice_apply _ _ hs (ix2 r d) (ix2 (⟨248 + r.val, by omega⟩ : Fin 256) d) (fun a => match a with
    | ⟨0, _⟩ => rfl
    | ⟨1, _⟩ => by show d.val = 0 + d.val; omega)).trans ?_
  exact tile_apply x h1 _ d

/-- The reset history is zero everywhere. -/
theorem zeros_apply (q : Fin 8) (d : Fin 4096) : (k0_pay3 (F := Ideal)) (ix2 q d) = 0 := by
  unfold k0_pay3
  rw [shapeCast_self]
  show Ideal.ofBits .f32 0x00000000#32 = 0
  exact Ideal.ofBits_zero_f32

/-- The history a point leaves is the last 8 rows of its tile. -/
theorem kept_apply (x : Vec Ideal S1x256x4096 .f32) (q : Fin 8) (d : Fin 4096) :
    k0_pay2 (k0_pay4 x) (ix2 q d) = x (ix3 (0 : Fin 1) (⟨248 + q.val, by omega⟩ : Fin 256) d) := by
  unfold k0_pay2 k0_pay4
  exact tail_apply x _ _ _ q d

/-- What a point stores into its output block is the arithmetic above, under the block's leading unit axis. -/
theorem stored_apply (P : FVec Ideal S256x4096 .f32) (z : Fin 1) (r : Fin 256) (d : Fin 4096) :
    k0_pay1 P (ix3 z r d) = P (ix2 r d) := by
  unfold k0_pay1
  refine shapeCast_apply P _ (ix3 z r d) (ix2 r d) ?_
  rw [Shape.rowMajor_val_three, Shape.rowMajor_val_two]
  show r.val * 4096 + d.val = (z.val * 256 + r.val) * 4096 + d.val
  have hz : z.val = 0 := by have := z.isLt; omega
  rw [hz]; omega

theorem ix3_congr {n0 n1 n2 : Nat} (β : Fin n0) (δ : Fin n2) {a a' : Nat} (ha : a < n1) (ha' : a' < n1) (e : a = a') :
    ix3 β (⟨a, ha⟩ : Fin n1) δ = ix3 β (⟨a', ha'⟩ : Fin n1) δ := by subst e; rfl

/-- THE DELAYED TILE IS THE DELAYED SEQUENCE. Tile `ι` of batch row `β` holds times `256 ι … 256 ι + 255`; if the
    history holds the 8 times before the tile (zeros at the first tile), then the tile delayed by `N ≤ 8` rows over the
    history, at row `r`, is `x[β, 256 ι + r - N, ·]`, zero before time 0. -/
theorem delayed_eq (x : (⟨3, ![4, 4096, 4096]⟩ : Shape).Idx → EReal) (X0 : Vec Ideal S1x256x4096 .f32)
    (H : Vec Ideal S8x4096 .f32) (β : Fin 4) (ι : Fin 16)
    (hX0 : ∀ (r : Fin 256) (d : Fin 4096), X0 (ix3 (0 : Fin 1) r d)
      = x (ix3 β (⟨ι.val * 256 + r.val, by have := ι.isLt; have := r.isLt; omega⟩ : Fin 4096) d))
    (hH : ∀ (q : Fin 8) (d : Fin 4096), H (ix2 q d)
      = if h : ι.val = 0 then 0 else x (ix3 β (⟨ι.val * 256 - 8 + q.val, by have := ι.isLt; have := q.isLt; omega⟩ : Fin 4096) d))
    (N o : Nat) (ho : o + N = 8) (r : Fin 256) (d : Fin 4096) :
    delayed N o ho X0 H r d
      = past x N β (⟨ι.val * 256 + r.val, by have := ι.isLt; have := r.isLt; omega⟩ : Fin 4096) d := by
  have hι : ι.val < 16 := ι.isLt
  have hr256 : r.val < 256 := r.isLt
  unfold delayed past
  by_cases hr : r.val < N
  · rw [dif_pos hr, hH]
    by_cases h0 : ι.val = 0
    · rw [dif_pos h0, dif_neg (by show ¬ N ≤ ι.val * 256 + r.val; omega)]
    · rw [dif_neg h0, dif_pos (by show N ≤ ι.val * 256 + r.val; omega)]
      exact congrArg x (ix3_congr β d _ _ (by show ι.val * 256 - 8 + (o + r.val) = ι.val * 256 + r.val - N; omega))
  · rw [dif_neg hr, hX0, dif_pos (by show N ≤ ι.val * 256 + r.val; omega)]
    exact congrArg x (ix3_congr β d _ _ (by show ι.val * 256 + (r.val - N) = ι.val * 256 + r.val - N; omega))

/-- ONE POINT COMPUTES THE CONVOLUTION ON ITS TILE: with the tile, the history, the taps and the bias as above, the
    body's arithmetic at row `r`, channel `d` is the convolution at batch row `β`, time `256 ι + r`, channel `d`. -/
theorem point_apply (x : (⟨3, ![4, 4096, 4096]⟩ : Shape).Idx → EReal) (w : (⟨2, ![4, 4096]⟩ : Shape).Idx → EReal)
    (b : (⟨1, ![4096]⟩ : Shape).Idx → EReal) (X0 : Vec Ideal S1x256x4096 .f32) (H : Vec Ideal S8x4096 .f32)
    (X1 : Vec Ideal S4x4096 .f32) (X2 : Vec Ideal S1x4096 .f32) (β : Fin 4) (ι : Fin 16)
    (hX0 : ∀ (r : Fin 256) (d : Fin 4096), X0 (ix3 (0 : Fin 1) r d)
      = x (ix3 β (⟨ι.val * 256 + r.val, by have := ι.isLt; have := r.isLt; omega⟩ : Fin 4096) d))
    (hH : ∀ (q : Fin 8) (d : Fin 4096), H (ix2 q d)
      = if h : ι.val = 0 then 0 else x (ix3 β (⟨ι.val * 256 - 8 + q.val, by have := ι.isLt; have := q.isLt; omega⟩ : Fin 4096) d))
    (hX1 : ∀ (k : Fin 4) (d : Fin 4096), X1 (ix2 k d) = w (ix2 k d))
    (hX2 : ∀ d : Fin 4096, X2 (ix2 (0 : Fin 1) d) = b (ix1 d)) (r : Fin 256) (d : Fin 4096) :
    k0_pay5 X0 H X1 X2 (ix2 r d)
      = at3 x w b β (⟨ι.val * 256 + r.val, by have := ι.isLt; have := r.isLt; omega⟩ : Fin 4096) d := by
  rw [conv_apply, delayed_eq x X0 H β ι hX0 hH 3 5 rfl, delayed_eq x X0 H β ι hX0 hH 2 6 rfl,
    delayed_eq x X0 H β ι hX0 hH 1 7 rfl, hX0, hX1, hX1, hX1, hX1, hX2]
  rfl

end Cert.KernelIdeal.Conv

end
-- ==== Proof.Blocks.lean ====
/-
  From the points to the array. Grid point `t` (of 64) handles batch row `β = t / 16` and tile `ι = t % 16`: its
  input block is times `256 ι … 256 ι + 255` of row `β`, its output block the same times of the result, and the
  history it finds is the last 8 rows of the block of point `t - 1` (same batch row, the tile before) unless `ι = 0`,
  where the body resets it to zeros. So every point writes back the convolution on its block, the 64 blocks tile
  the result array, and the array after the run is the convolution of the arguments.
-/
import proofs.«163459_j71305047048638_1_alg».proof.Proof.Gen.KernelIdeal.Value
import proofs.«163459_j71305047048638_1_alg».proof.Proof.Cases
import proofs.«163459_j71305047048638_1_alg».proof.Proof.Body
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Conv

open Cert.KernelIdeal Cert.KernelIdeal.Gen Cert.CausalConv

variable (m : (ℓ : Loc nD τ sig) → Buf (Elt Ideal) ℓ) (ρ : Dev nD → PrngReg)

/-- The printed index maps over the grid: the big windows follow (batch row, tile), the taps and the bias stay put. -/
theorem idx_facts : ∀ t : Fin cfg0.N,
    win0_0.index t (0 : Fin 3) = t.val / 16 ∧ win0_0.index t (1 : Fin 3) = t.val % 16 ∧ win0_0.index t (2 : Fin 3) = 0
    ∧ win0_3.index t (0 : Fin 3) = t.val / 16 ∧ win0_3.index t (1 : Fin 3) = t.val % 16 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The arguments, as arrays of extended reals. -/
abbrev xarr (c : Dev nD) : (⟨3, ![4, 4096, 4096]⟩ : Shape).Idx → EReal := m ((c : Thread nD τ).loc main_arg0)
abbrev warr (c : Dev nD) : (⟨2, ![4, 4096]⟩ : Shape).Idx → EReal := m ((c : Thread nD τ).loc main_arg1)
abbrev barr (c : Dev nD) : (⟨1, ![4096]⟩ : Shape).Idx → EReal := m ((c : Thread nD τ).loc main_arg2)

/-- The three input blocks of point `t`, at their literal shapes. -/
abbrev xblk (c : Dev nD) (t : Fin cfg0.N) : Vec Ideal S1x256x4096 .f32 := iblk m c 0 t
abbrev wblk (c : Dev nD) (t : Fin cfg0.N) : Vec Ideal S4x4096 .f32 := iblk m c 1 t
abbrev bblk (c : Dev nD) (t : Fin cfg0.N) : Vec Ideal S1x4096 .f32 := iblk m c 2 t

/-- The input block of point `t`, batch row `β = t / 16`, tile `ι = t % 16`: times `256 ι + r` of row `β`. -/
theorem xblk_apply (c : Dev nD) (t : Fin cfg0.N) (β : Fin 4) (ι : Fin 16) (hβ : t.val / 16 = β.val) (hι : t.val % 16 = ι.val)
    (z : Fin 1) (r : Fin 256) (d : Fin 4096) :
    xblk m c t (ix3 z r d)
      = xarr m c (ix3 β (⟨ι.val * 256 + r.val, by have := ι.isLt; have := r.isLt; omega⟩ : Fin 4096) d) := by
  obtain ⟨e0, e1, e2, -⟩ := idx_facts t
  have hz : z.val = 0 := by have := z.isLt; omega
  unfold xblk iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * z.val = β.val; rw [e0, hz]; omega
  | ⟨1, _⟩ => show win0_0.index t (1 : Fin 3) * 256 + 1 * r.val = ι.val * 256 + r.val; rw [e1]; omega
  | ⟨2, _⟩ => show win0_0.index t (2 : Fin 3) * 4096 + 1 * d.val = d.val; rw [e2]; omega

/-- The taps block is the whole tap array at every point. -/
theorem wblk_apply (c : Dev nD) (t : Fin cfg0.N) (k : Fin 4) (d : Fin 4096) :
    wblk m c t (ix2 k d) = warr m c (ix2 k d) := by
  obtain ⟨-, -, -, -, -, -, e0, e1, -⟩ := idx_facts t
  unfold wblk iblk
  rw [View.read_apply]
  show V m c main_arg1 _ = m (c.tc.loc main_arg1) _
  rw [V_main_arg1]
  congr 1
  funext a
  apply Fin.ext
  match a with
  | ⟨0, _⟩ => show win0_1.index t (0 : Fin 2) * 4 + 1 * k.val = k.val; rw [e0]; omega
  | ⟨1, _⟩ => show win0_1.index t (1 : Fin 2) * 4096 + 1 * d.val = d.val; rw [e1]; omega

/-- The bias window stages the host's reshape of `b` to one row. -/
theorem brow_eq (c : Dev nD) :
    (V m c main_v0 : S1x4096.Idx → EReal) = shapeCast S1x4096 (m ((c : Thread nD τ).loc main_arg2)) shapeCasts_S4096_S1x4096 := by
  dsimp only [V, hostOps0]; after_results; rfl

/-- The bias block is that row at every point. -/
theorem bblk_apply (c : Dev nD) (t : Fin cfg0.N) (d : Fin 4096) :
    bblk m c t (ix2 (0 : Fin 1) d) = barr m c (ix1 d) := by
  obtain ⟨-, -, -, -, -, -, -, -, e0, e1⟩ := idx_facts t
  unfold bblk iblk
  rw [View.read_apply]
  show (V m c main_v0 : S1x4096.Idx → EReal) _ = _
  rw [brow_eq]
  refine shapeCast_apply _ _ _ (ix1 d) ?_
  rw [Shape.rowMajor_val_one, Shape.rowMajor_val_two]
  show d.val = (win0_2.index t (0 : Fin 2) * 1 + 1 * 0) * 4096 + (win0_2.index t (1 : Fin 2) * 4096 + 1 * d.val)
  rw [e0, e1]; omega

/-- The history a later tile finds — the last 8 rows of the block of the point before — is the 8 times before the tile. -/
theorem hist_apply (c : Dev nD) (t : Fin cfg0.N) (β : Fin 4) (ι : Fin 16) (hβ : t.val / 16 = β.val) (hι : t.val % 16 = ι.val)
    (h0 : ¬ι.val = 0) (q : Fin 8) (d : Fin 4096) :
    k0_pay2 (k0_pay4 (xblk m c ⟨t.val - 1, Nat.lt_of_le_of_lt (Nat.sub_le _ _) t.isLt⟩)) (ix2 q d)
      = xarr m c (ix3 β (⟨ι.val * 256 - 8 + q.val, by have := ι.isLt; have := q.isLt; omega⟩ : Fin 4096) d) := by
  have hq : q.val < 8 := q.isLt
  have hι16 : ι.val < 16 := ι.isLt
  obtain ⟨ι', hι'⟩ : ∃ ι' : Fin 16, ι'.val = ι.val - 1 := ⟨⟨ι.val - 1, by omega⟩, rfl⟩
  rw [kept_apply, xblk_apply m c ⟨t.val - 1, Nat.lt_of_le_of_lt (Nat.sub_le _ _) t.isLt⟩ β ι'
    (by show (t.val - 1) / 16 = β.val; omega) (by show (t.val - 1) % 16 = ι'.val; omega)]
  exact congrArg (xarr m c) (ix3_congr β d _ _ (by show ι'.val * 256 + (248 + q.val) = ι.val * 256 - 8 + q.val; omega))

/-- The output block point `t` leaves, over the named blocks. -/
theorem out_first' (c : Dev nD) (t : Fin cfg0.N) (h0 : t.val % 16 = 0) :
    (outsAt0 m c t.val t.isLt).1 = k0_pay1 (k0_pay5 (xblk m c t) (k0_pay3 (F := Ideal)) (wblk m c t) (bblk m c t)) :=
  out_first m c t h0
theorem out_later' (c : Dev nD) (t : Fin cfg0.N) (h0 : ¬t.val % 16 = 0) :
    (outsAt0 m c t.val t.isLt).1 = k0_pay1 (k0_pay5 (xblk m c t)
      (k0_pay2 (k0_pay4 (xblk m c ⟨t.val - 1, Nat.lt_of_le_of_lt (Nat.sub_le _ _) t.isLt⟩))) (wblk m c t) (bblk m c t)) :=
  out_later m c t h0

/-- The block point `t` leaves, at one entry, is the convolution there. -/
theorem left_apply (c : Dev nD) (t : Fin cfg0.N) (β : Fin 4) (ι : Fin 16) (hβ : t.val / 16 = β.val) (hι : t.val % 16 = ι.val)
    (z : Fin 1) (r : Fin 256) (d : Fin 4096) :
    ((outsAt0 m c t.val t.isLt).1 : Vec Ideal S1x256x4096 .f32) (ix3 z r d)
      = at3 (xarr m c) (warr m c) (barr m c) β (⟨ι.val * 256 + r.val, by have := ι.isLt; have := r.isLt; omega⟩ : Fin 4096) d := by
  by_cases h0 : ι.val = 0
  · rw [out_first' m c t (hι.trans h0), stored_apply]
    refine point_apply (xarr m c) (warr m c) (barr m c) (xblk m c t) (k0_pay3 (F := Ideal)) (wblk m c t) (bblk m c t) β ι
      ?_ ?_ ?_ ?_ r d
    · exact fun r d => xblk_apply m c t β ι hβ hι 0 r d
    · intro q d; rw [zeros_apply, dif_pos h0]
    · exact fun k d => wblk_apply m c t k d
    · exact fun d => bblk_apply m c t d
  · rw [out_later' m c t (fun h => h0 (hι.symm.trans h)), stored_apply]
    refine point_apply (xarr m c) (warr m c) (barr m c) (xblk m c t)
      (k0_pay2 (k0_pay4 (xblk m c ⟨t.val - 1, Nat.lt_of_le_of_lt (Nat.sub_le _ _) t.isLt⟩))) (wblk m c t) (bblk m c t) β ι
      ?_ ?_ ?_ ?_ r d
    · exact fun r d => xblk_apply m c t β ι hβ hι 0 r d
    · intro q d; rw [hist_apply m c t β ι hβ hι h0, dif_neg h0]
    · exact fun k d => wblk_apply m c t k d
    · exact fun d => bblk_apply m c t d

/-- WHAT POINT `t` WRITES BACK is block `t` of the convolution of the arguments. -/
theorem flushed_eq (c : Dev nD) (t : Fin cfg0.N) :
    (dats m 0 c).flushed 3 t
      = ((cfg0.win 3).blk t).view.read (Elt Ideal) (conv (xarr m c) (warr m c) (barr m c)) := by
  have hN : t.val < 64 := lt_of_lt_of_eq t.isLt (show cfg0.N = 64 from N_0)
  obtain ⟨-, -, -, e0, e1, e2, -⟩ := idx_facts t
  obtain ⟨β, hβ⟩ : ∃ β : Fin 4, t.val / 16 = β.val := ⟨⟨t.val / 16, by omega⟩, rfl⟩
  obtain ⟨ι, hι⟩ : ∃ ι : Fin 16, t.val % 16 = ι.val := ⟨⟨t.val % 16, by omega⟩, rfl⟩
  rw [Value.flushed3]
  funext j
  obtain ⟨z, r, d, rfl⟩ : ∃ (z : Fin 1) (r : Fin 256) (d : Fin 4096), j = ix3 z r d := ⟨j 0, j 1, j 2, eq_ix3 j⟩
  have hz : z.val = 0 := by have := z.isLt; omega
  have hr : r.val < 256 := r.isLt
  have hι16 : ι.val < 16 := ι.isLt
  rw [View.read_apply]
  have hemb : ((cfg0.win 3).blk t).view.emb (ix3 z r d)
      = ix3 β (⟨ι.val * 256 + r.val, by omega⟩ : Fin 4096) d := by
    funext a
    apply Fin.ext
    match a with
    | ⟨0, _⟩ => show win0_3.index t (0 : Fin 3) * 1 + 1 * z.val = β.val; rw [e0, hz]; omega
    | ⟨1, _⟩ => show win0_3.index t (1 : Fin 3) * 256 + 1 * r.val = ι.val * 256 + r.val; rw [e1]; omega
    | ⟨2, _⟩ => show win0_3.index t (2 : Fin 3) * 4096 + 1 * d.val = d.val; rw [e2]; omega
  rw [hemb, conv_ix3]
  exact left_apply m c t β ι hβ hι z r d

/-- An index of the result array is in point `t`'s block iff each coordinate is in the block's range on its axis. -/
theorem mem_blk (t : Fin cfg0.N) (i : S4x4096x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v1).slice (win0_3.rect t)).set ↔ _
  rw [View.set_slice_whole, Rect.mem_set_unit]
  exact Iff.rfl

/-- The 64 blocks tile the result array: entry `(β, τ, δ)` is in the block of point `16 β + τ / 256`. -/
theorem covered (i : S4x4096x4096.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 4096 := (i 2).isLt
  have hN : cfg0.N = 64 := N_0
  obtain ⟨t, ht⟩ : ∃ t : Fin cfg0.N, t.val = 16 * (i 0).val + (i 1).val / 256 := ⟨⟨_, by rw [hN]; omega⟩, rfl⟩
  obtain ⟨-, -, -, e0, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 256 ≤ (i 1).val ∧ (i 1).val < win0_3.index t (1 : Fin 3) * 256 + 256; rw [e1, ht]; omega
  | ⟨2, _⟩ => show win0_3.index t (2 : Fin 3) * 4096 ≤ (i 2).val ∧ (i 2).val < win0_3.index t (2 : Fin 3) * 4096 + 4096; rw [e2]; omega

/-- THE RESULT ARRAY after the run is the convolution of the arguments. -/
theorem final (c : Dev nD) : (dats m 0 c).arrAt 3 cfg0.N = conv (xarr m c) (warr m c) (barr m c) :=
  (dats m 0 c).arrAt_eq_of_cover 3 (conv (xarr m c) (warr m c) (barr m c)) (fun t _ => flushed_eq m c t) covered

/-- The run, read: the result at the convolution of the arguments, the arguments unchanged. -/
theorem run : θ_run defs (onTc (τ := τ) (main (F := Ideal))) ⟨m, fun _ => 0, ρ⟩ fun r => ∀ c : Dev nD,
      r.2.mem ((c : Thread nD τ).loc main_v1) = conv (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Conv

end
-- ==== Proof.Reference.lean ====
/-
  The reference, entry by entry: jnp pads `x` with three zero rows in front of the time axis, takes the four windows
  of 4096 rows starting at rows 0, 1, 2, 3 of the padded array, multiplies window `k` by tap row `w[k]` and adds
  the products in tap order onto zeros, then adds the bias. Window `k` at time `τ` is the padded row `τ + k`, that is
  `x` at time `τ + k - 3`, or the padding value (the integer zero converted: the real zero) when `τ + k < 3`.
-/
import proofs.«163459_j71305047048638_1_alg».proof.Proof.Gen.ReferenceIdeal.Read
import proofs.«163459_j71305047048638_1_alg».proof.Proof.Spec
import Idealize.ShloMosaic.Lib.KernelVsHost
import Idealize.ShloMosaic.PureOps.Ideal.Laws

noncomputable section

namespace Cert.ReferenceIdeal.ConvRef

open Cert.ReferenceIdeal Cert.ReferenceIdeal.Gen Cert.ReferenceIdeal.Read Cert.CausalConv
open Idealize.ShloMosaic Idealize.ShloMosaic.ValueIdx

/-- The padding value is the real zero. -/
theorem padval (i : S_.Idx) : val_main_call0_v0 (F := Ideal) i = 0 := by
  show ((((0#32 : BitVec 32).toInt : ℤ) : ℝ) : EReal) = 0
  simp

/-- THE PADDED ARRAY at row `τ + k` (`k ≤ 3`): `x` delayed by `3 - k` rows, zero before the start. -/
theorem padded_apply (x : (⟨S4x4096x4096, .f32⟩ : BufTy).Contents (Elt Ideal)) (k N : Nat) (hk : k + N = 3)
    (β : Fin 4) (τ : Fin 4096) (δ : Fin 4096) (j : S4x4099x4096.Idx)
    (h0 : (j 0).val = β.val) (h1 : (j 1).val = k + τ.val) (h2 : (j 2).val = δ.val) :
    val_main_v0 (F := Ideal) x j = past x N β τ δ := by
  have hτ : τ.val < 4096 := τ.isLt
  unfold val_main_v0 past
  by_cases h : N ≤ τ.val
  · rw [dif_pos h]
    exact pad_apply_of_inside _ _ _ x _ _ _ j (ix3 β (⟨τ.val - N, by omega⟩ : Fin 4096) δ) (fun a => match a with
      | ⟨0, _⟩ => by show (j 0).val = 0 + β.val * (0 + 1); omega
      | ⟨1, _⟩ => by show (j 1).val = 3 + (τ.val - N) * (0 + 1); omega
      | ⟨2, _⟩ => by show (j 2).val = 0 + δ.val * (0 + 1); omega)
  · rw [dif_neg h]
    refine (pad_apply_of_not_inside _ _ _ x _ _ _ j (1 : Fin 3) (fun hin => ?_)).trans (padval _)
    have e : 3 ≤ (j 1).val := hin.1
    omega

theorem tap0_idx (β : Fin 4) (τ : Fin 4096) (δ : Fin 4096) :
    idx_main_v8 (idx_main_v9 (idx_main_v10 (idx_main_v11 (ix3 β τ δ)))) = ix2 (⟨0, by omega⟩ : Fin 4) δ :=
  funext fun a => Fin.ext (by
    match a with
    | ⟨0, _⟩ => rfl
    | ⟨1, _⟩ => show δ.val % 4096 = δ.val; exact Nat.mod_eq_of_lt δ.isLt)

theorem tap1_idx (β : Fin 4) (τ : Fin 4096) (δ : Fin 4096) :
    idx_main_v15 (idx_main_v16 (idx_main_v17 (idx_main_v18 (ix3 β τ δ)))) = ix2 (⟨1, by omega⟩ : Fin 4) δ :=
  funext fun a => Fin.ext (by
    match a with
    | ⟨0, _⟩ => rfl
    | ⟨1, _⟩ => show δ.val % 4096 = δ.val; exact Nat.mod_eq_of_lt δ.isLt)

theorem tap2_idx (β : Fin 4) (τ : Fin 4096) (δ : Fin 4096) :
    idx_main_v22 (idx_main_v23 (idx_main_v24 (idx_main_v25 (ix3 β τ δ)))) = ix2 (⟨2, by omega⟩ : Fin 4) δ :=
  funext fun a => Fin.ext (by
    match a with
    | ⟨0, _⟩ => rfl
    | ⟨1, _⟩ => show δ.val % 4096 = δ.val; exact Nat.mod_eq_of_lt δ.isLt)

theorem tap3_idx (β : Fin 4) (τ : Fin 4096) (δ : Fin 4096) :
    idx_main_v29 (idx_main_v30 (idx_main_v31 (idx_main_v32 (ix3 β τ δ)))) = ix2 (⟨3, by omega⟩ : Fin 4) δ :=
  funext fun a => Fin.ext (by
    match a with
    | ⟨0, _⟩ => rfl
    | ⟨1, _⟩ => show δ.val % 4096 = δ.val; exact Nat.mod_eq_of_lt δ.isLt)

theorem bias_idx (β : Fin 4) (τ : Fin 4096) (δ : Fin 4096) :
    idx_main_v35 (idx_main_v36 (ix3 β τ δ)) = ix1 δ :=
  funext fun a => Fin.ext (by
    match a with
    | ⟨0, _⟩ => rfl)

/-- THE REFERENCE IS THE CONVOLUTION, entry by entry. -/
theorem ref_apply (x : (⟨S4x4096x4096, .f32⟩ : BufTy).Contents (Elt Ideal)) (w : (⟨S4x4096, .f32⟩ : BufTy).Contents (Elt Ideal))
    (b : (⟨S4096, .f32⟩ : BufTy).Contents (Elt Ideal)) (β : Fin 4) (τ : Fin 4096) (δ : Fin 4096) :
    val_main_v37 (F := Ideal) x w b (ix3 β τ δ) = at3 x w b β τ δ := by
  rw [val_main_v37_apply, val_main_v34_apply, val_main_v27_apply, val_main_v20_apply, val_main_v13_apply,
    val_main_v33_apply, val_main_v26_apply, val_main_v19_apply, val_main_v12_apply,
    val_main_v6_apply, val_main_cst_0_apply,
    val_main_v36_apply, val_main_v35_apply, bias_idx,
    val_main_v11_apply, val_main_v10_apply, val_main_v9_apply, val_main_v8_apply, tap0_idx,
    val_main_v18_apply, val_main_v17_apply, val_main_v16_apply, val_main_v15_apply, tap1_idx,
    val_main_v25_apply, val_main_v24_apply, val_main_v23_apply, val_main_v22_apply, tap2_idx,
    val_main_v32_apply, val_main_v31_apply, val_main_v30_apply, val_main_v29_apply, tap3_idx,
    val_main_v7_apply, val_main_v14_apply, val_main_v21_apply, val_main_v28_apply,
    padded_apply x 0 3 rfl β τ δ (idx_main_v7 (ix3 β τ δ)) rfl (by show τ.val = 0 + τ.val; omega) rfl,
    padded_apply x 1 2 rfl β τ δ (idx_main_v14 (ix3 β τ δ)) rfl rfl rfl,
    padded_apply x 2 1 rfl β τ δ (idx_main_v21 (ix3 β τ δ)) rfl rfl rfl,
    padded_apply x 3 0 rfl β τ δ (idx_main_v28 (ix3 β τ δ)) rfl rfl rfl, past_zero]
  simp only [Ideal.ofBits_def, Ideal.ofBits_zero_f32, Ideal.addf_def, Ideal.mulf_def]
  rfl

/-- … so the reference's result array is the convolution of the arguments. -/
theorem ref_eq (x : (⟨S4x4096x4096, .f32⟩ : BufTy).Contents (Elt Ideal)) (w : (⟨S4x4096, .f32⟩ : BufTy).Contents (Elt Ideal))
    (b : (⟨S4096, .f32⟩ : BufTy).Contents (Elt Ideal)) :
    val_main_v37 (F := Ideal) x w b = conv x w b := by
  funext i
  obtain ⟨β, τ, δ, rfl⟩ : ∃ (β : Fin 4) (τ : Fin 4096) (δ : Fin 4096), i = ix3 β τ δ := ⟨i 0, i 1, i 2, eq_ix3 i⟩
  exact ref_apply x w b β τ δ

end Cert.ReferenceIdeal.ConvRef

end
-- ==== Proof.lean ====
/-
  A depthwise causal temporal convolution with four taps: for each batch row, time and channel,
      out[β, τ, δ] = Σ_k x[β, τ - (3 - k), δ] · w[k, δ] + b[δ],      x before time 0 read as zero.
  The kernel streams each batch row through 16 tiles of 256 times, carrying the last 8 rows of a tile to the next
  one in a scratch (zeroed at the first tile of a row); the reference pads the time axis with three zero rows and adds
  four shifted windows. Both add the four products in tap order onto zero and then the bias, so at every entry the
  two results are the same expression of the same extended reals: no algebraic law joins them, and the precondition is
  never opened.

  Proof/Spec.lean states the convolution entry by entry; Proof/Body.lean reads one grid point's arithmetic at an
  entry; Proof/Cases.lean says what a point leaves in the output block and in the carried scratch; Proof/Blocks.lean
  goes from the points to the result array; Proof/Reference.lean reads the reference at an entry.
-/
import proofs.«163459_j71305047048638_1_alg».proof.Defs
import proofs.«163459_j71305047048638_1_alg».proof.Proof.Gen.Kernel
import proofs.«163459_j71305047048638_1_alg».proof.Proof.Gen.Kernel.Skeleton
import proofs.«163459_j71305047048638_1_alg».proof.Proof.Gen.Kernel.Launch
import proofs.«163459_j71305047048638_1_alg».proof.Proof.Gen.Kernel.Points
import proofs.«163459_j71305047048638_1_alg».proof.Proof.Gen.Kernel.Frame
import proofs.«163459_j71305047048638_1_alg».proof.Proof.Gen.KernelIdeal
import proofs.«163459_j71305047048638_1_alg».proof.Proof.Gen.KernelIdeal.Skeleton
import proofs.«163459_j71305047048638_1_alg».proof.Proof.Gen.KernelIdeal.Launch
import proofs.«163459_j71305047048638_1_alg».proof.Proof.Gen.KernelIdeal.Points
import proofs.«163459_j71305047048638_1_alg».proof.Proof.Gen.KernelIdeal.Frame
import proofs.«163459_j71305047048638_1_alg».proof.Proof.Gen.ReferenceIdeal
import proofs.«163459_j71305047048638_1_alg».proof.Proof.Gen.KernelIdeal.Value
import proofs.«163459_j71305047048638_1_alg».proof.Proof.Gen.ReferenceIdeal.Run
import proofs.«163459_j71305047048638_1_alg».proof.Proof.Gen.ReferenceIdeal.Read
import proofs.«163459_j71305047048638_1_alg».proof.Proof.Gen.Pre_finite_inputs
import proofs.«163459_j71305047048638_1_alg».proof.Proof.Blocks
import proofs.«163459_j71305047048638_1_alg».proof.Proof.Reference
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals both programs end with the convolution of the arguments in their result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.CausalConv.conv (Cert.KernelIdeal.Conv.xarr m c) (Cert.KernelIdeal.Conv.warr m c) (Cert.KernelIdeal.Conv.barr m c),
    Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.ConvRef.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
